-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S40x32 : S_.BroadcastsInDim S40x32 (![] : Fin 0 → Fin S40x32.rank)
  reducesTo_S40x32_S_d0_1 : S40x32.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32 .f32) (main_arg6 : FVec F S40x32 .f32) (main_arg7 : FVec F S40 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S40x32 .f32 := Host.absf main_arg6
  let main_cst_8 : FVec F S_ .f32 := constant S_ .f32 0x7F800000#32
  let main_v25 : FVec F S40x32 .f32 := broadcastInDim S40x32 ![] bcast_S_S40x32 main_cst_8
  let main_v26 : IVec S40x32 1 := cmpf .olt main_v24 main_v25
  let main_c_9 : IVec S_ 1 := constantI S_ 1 1#1
  let main_v27 : IVec S_ 1 := (fun x v => Host.reduce IntOp.andi x v reducesTo_S40x32_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S32x128 .f32) (main_arg3 : FVec F S32x128 .f32) (main_arg4 : FVec F S32x32 .f32) (main_arg5 : FVec F S32 .f32) (main_arg6 : FVec F S40x32 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x32 : Shape := ⟨2, ![128, 32]⟩
abbrev S32x40 : Shape := ⟨2, ![32, 40]⟩
abbrev S50000x40 : Shape := ⟨2, ![50000, 40]⟩
abbrev S5000x128 : Shape := ⟨2, ![5000, 128]⟩
abbrev S5000x40 : Shape := ⟨2, ![5000, 40]⟩
abbrev S5000x32 : Shape := ⟨2, ![5000, 32]⟩
abbrev S5000 : Shape := ⟨1, ![5000]⟩
abbrev S5000x1 : Shape := ⟨2, ![5000, 1]⟩
abbrev S1x32 : Shape := ⟨2, ![1, 32]⟩
abbrev S1x40 : Shape := ⟨2, ![1, 40]⟩

abbrev nBuf : Space → Nat
  | .hbm => 42
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32x128, .f32⟩
  | .hbm, ⟨4, _⟩ => ⟨S32x32, .f32⟩
  | .hbm, ⟨5, _⟩ => ⟨S32, .f32⟩
  | .hbm, ⟨6, _⟩ => ⟨S40x32, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x32, .f32⟩
  | .hbm, ⟨38, _⟩ => ⟨S128x32, .f32⟩
  | .hbm, ⟨39, _⟩ => ⟨S32x32, .f32⟩
  | .hbm, ⟨40, _⟩ => ⟨S32x40, .f32⟩
  | .hbm, ⟨41, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S128x32, .f32⟩
  | .local _ .vmem, ⟨6, _⟩ => ⟨S32x32, .f32⟩
  | .local _ .vmem, ⟨7, _⟩ => ⟨S32, .f32⟩
  | .local _ .vmem, ⟨8, _⟩ => ⟨S32x40, .f32⟩
  | .local _ .vmem, ⟨9, _⟩ => ⟨S40, .f32⟩
  | .local _ .vmem, ⟨10, _⟩ => ⟨S5000x40, .f32⟩
  | .local _ .vmem, ⟨11, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  transposes_S32x32_S32x32_1_0 : S32x32.Transposes [1, 0] S32x32
  transposes_S40x32_S32x40_1_0 : S40x32.Transposes [1, 0] S32x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  reduces_S5000x32_S5000 : S5000x32.Reduces [1] S5000
  shapeCasts_S5000_S5000x1 : S5000.ShapeCasts S5000x1
  broadcasts_S5000x1_S5000x32 : S5000x1.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x40.size a ≤ S32x40.size a
  hwx0_6 : ∀ i : grid0.Coords, EltTy.bits .f32 = 32 ∨ (Rect.block (s := S32x40) S32x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40.size a ≤ S40.size a
  hwx0_7 : ∀ i : grid0.Coords, EltTy.bits .f32 = 32 ∨ (Rect.block (s := S40) S40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x40.size a ≤ S50000x40.size a
  hwx0_8 : ∀ i : grid0.Coords, EltTy.bits .f32 = 32 ∨ (Rect.block (s := S50000x40) S5000x40.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S32x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S5000x40.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S1x32 : Shape := ⟨2, ![1, 32]⟩
abbrev S32x40 : Shape := ⟨2, ![32, 40]⟩
abbrev S50000x40 : Shape := ⟨2, ![50000, 40]⟩
abbrev S1x40 : Shape := ⟨2, ![1, 40]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32x128, .f32⟩
  | .hbm, ⟨4, _⟩ => ⟨S32x32, .f32⟩
  | .hbm, ⟨5, _⟩ => ⟨S32, .f32⟩
  | .hbm, ⟨6, _⟩ => ⟨S40x32, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x32, .f32⟩
  | .hbm, ⟨38, _⟩ => ⟨S50000x32, .f32⟩
  | .hbm, ⟨39, _⟩ => ⟨S128x32, .f32⟩
  | .hbm, ⟨40, _⟩ => ⟨S50000x32, .f32⟩
  | .hbm, ⟨41, _⟩ => ⟨S50000x32, .f32⟩
  | .hbm, ⟨42, _⟩ => ⟨S50000x32, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x32, .f32⟩
  | .hbm, ⟨51, _⟩ => ⟨S50000x32, .f32⟩
  | .hbm, ⟨52, _⟩ => ⟨S_, .f32⟩
  | .hbm, ⟨53, _⟩ => ⟨S50000x32, .f32⟩
  | .hbm, ⟨54, _⟩ => ⟨S50000x32, .f32⟩
  | .hbm, ⟨55, _⟩ => ⟨S32x32, .f32⟩
  | .hbm, ⟨56, _⟩ => ⟨S50000x32, .f32⟩
  | .hbm, ⟨57, _⟩ => ⟨S1x32, .f32⟩
  | .hbm, ⟨58, _⟩ => ⟨S50000x32, .f32⟩
  | .hbm, ⟨59, _⟩ => ⟨S50000x32, .f32⟩
  | .hbm, ⟨60, _⟩ => ⟨S32x40, .f32⟩
  | .hbm, ⟨61, _⟩ => ⟨S50000x40, .f32⟩
  | .hbm, ⟨62, _⟩ => ⟨S1x40, .f32⟩
  | .hbm, ⟨63, _⟩ => ⟨S50000x40, .f32⟩
  | .hbm, ⟨64, _⟩ => ⟨S50000x40, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x40, .f32⟩
  | .hbm, ⟨72, _⟩ => ⟨S50000x40, .f32⟩
  | .hbm, ⟨73, _⟩ => ⟨S50000x40, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S50000x1, .f32⟩
  | .hbm, ⟨78, _⟩ => ⟨S50000x40, .f32⟩
  | .hbm, ⟨79, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  reducesTo_S50000x32_S50000_d1 : S50000x32.ReducesTo [1] S50000
  h_S_ : 0 < S_.numel
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  transposes_S32x32_S32x32_1_0 : S32x32.Transposes [1, 0] S32x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S40x32_S32x40_1_0 : S40x32.Transposes [1, 0] S32x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  dot_S50000x32_S32x40_S50000x40_1_0_0_1_n_n_wf : DotDims.WF S50000x32 S32x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x40_S50000x40_1_0_0_1_n_n : DotDims S50000x32 S32x40 S50000x40 where
  lhsContracting := [1]
  rhsContracting := [0]
  lhsNonContracting := [0]
  rhsNonContracting := [1]
  lhsBatch := []
  rhsBatch := []
  wf := dot_S50000x32_S32x40_S50000x40_1_0_0_1_n_n_wf

class Facts : Prop extends Facts₀ where

variable [Facts]
-- ==== Proof.RowSpec.lean ====
/-
  The function both programs compute, row by row. For a node `r` with feature row `x r` and aggregated
  neighbour row `mean r` (both of length 128), and weights given in the orientation the products use them
  (`wl`, `wr` : 128 × 32, `w1` : 32 × 32, `w2` : 32 × 40):

    pre r j    = Σ_k x r k · wl k j + Σ_k mean r k · wr k j
    act r j    = max (pre r j / max (√(Σ_j (pre r j)²)) ε) 0
    hid r i    = Σ_j act r j · w1 j i + b1 i
    logit r c  = Σ_i hid r i · w2 i c + b2 c
    out r c    = (logit r c − top r) − log Σ_c' exp (logit r c' − top r),   top r = max_c logit r c

  on the extended reals, with `ε`, the zero and the reduction's starting value −∞ kept as the float words the programs
  carry (the same word on both sides is never evaluated). Row `r` of the result depends on row `r` of `x` and of
  `mean` only (`out_congr`): that is what lets a tiling over row blocks compute it block by block.
-/
import Idealize.ShloMosaic.Lib.ValueIdx
import Idealize.ShloMosaic.PureOps.Ideal.Laws

noncomputable section

namespace Cert.RowSpec

open Idealize.ShloMosaic Idealize.ShloMosaic.ValueIdx

section
variable {n : ℕ}
variable (x mean : (⟨2, ![n, 128]⟩ : Shape).Idx → EReal) (wl wr : (⟨2, ![128, 32]⟩ : Shape).Idx → EReal)
  (w1 : (⟨2, ![32, 32]⟩ : Shape).Idx → EReal) (b1 : (⟨1, ![32]⟩ : Shape).Idx → EReal)
  (w2 : (⟨2, ![32, 40]⟩ : Shape).Idx → EReal) (b2 : (⟨1, ![40]⟩ : Shape).Idx → EReal)

/-- The two projections of a node's own row and of its neighbours' mean, added. -/
def pre (r : Fin n) (j : Fin 32) : EReal :=
  (∑ k : Fin 128, x (ix2 r k) * wl (ix2 k j)) + ∑ k : Fin 128, mean (ix2 r k) * wr (ix2 k j)

/-- The row's Euclidean norm, kept away from zero by the float word of `1e-12`. -/
def nrm (r : Fin n) : EReal :=
  max (Ideal.sqrt (∑ j : Fin 32, pre x mean wl wr r j * pre x mean wl wr r j)) (Ideal.ofBits .f32 0x2B8CBCCC#32)

/-- The normalised row, rectified. -/
def act (r : Fin n) (j : Fin 32) : EReal :=
  max (Ideal.div (pre x mean wl wr r j) (nrm x mean wl wr r)) (Ideal.ofBits .f32 0x00000000#32)

/-- The first linear layer after message passing. -/
def hid (r : Fin n) (i : Fin 32) : EReal :=
  (∑ j : Fin 32, act x mean wl wr r j * w1 (ix2 j i)) + b1 (ix1 i)

/-- The second one: the row's forty logits. -/
def logit (r : Fin n) (c : Fin 40) : EReal :=
  (∑ i : Fin 32, hid x mean wl wr w1 b1 r i * w2 (ix2 i c)) + b2 (ix1 c)

/-- The row's largest logit, the fold of `max` from the float word of −∞. -/
def top (r : Fin n) : EReal :=
  (Finset.univ : Finset (Fin 40)).fold max (Ideal.ofBits .f32 0xFF800000#32) (fun c => logit x mean wl wr w1 b1 w2 b2 r c)

/-- A logit less the row's largest. -/
def shifted (r : Fin n) (c : Fin 40) : EReal := logit x mean wl wr w1 b1 w2 b2 r c - top x mean wl wr w1 b1 w2 b2 r

/-- The log-softmax of the row's logits. -/
def out (r : Fin n) (c : Fin 40) : EReal :=
  shifted x mean wl wr w1 b1 w2 b2 r c - Ideal.log (∑ c' : Fin 40, Ideal.exp (shifted x mean wl wr w1 b1 w2 b2 r c'))

/-- The whole result as an array: entry `(r, c)` is `out r c`. -/
def arr : (⟨2, ![n, 40]⟩ : Shape).Idx → EReal := fun i => out x mean wl wr w1 b1 w2 b2 (i 0) (i 1)

theorem arr_apply (r : Fin n) (c : Fin 40) : arr x mean wl wr w1 b1 w2 b2 (ix2 r c) = out x mean wl wr w1 b1 w2 b2 r c := rfl

end

/-- Row `p` of the result for one pair of arrays is row `r` of the result for another when the two pairs agree on
    those rows: the function never mixes rows. -/
theorem out_congr {n n' : ℕ} (x mean : (⟨2, ![n, 128]⟩ : Shape).Idx → EReal) (x' mean' : (⟨2, ![n', 128]⟩ : Shape).Idx → EReal)
    (wl wr : (⟨2, ![128, 32]⟩ : Shape).Idx → EReal) (w1 : (⟨2, ![32, 32]⟩ : Shape).Idx → EReal) (b1 : (⟨1, ![32]⟩ : Shape).Idx → EReal)
    (w2 : (⟨2, ![32, 40]⟩ : Shape).Idx → EReal) (b2 : (⟨1, ![40]⟩ : Shape).Idx → EReal) (p : Fin n') (r : Fin n)
    (hx : ∀ k, x' (ix2 p k) = x (ix2 r k)) (hm : ∀ k, mean' (ix2 p k) = mean (ix2 r k)) (c : Fin 40) :
    out x' mean' wl wr w1 b1 w2 b2 p c = out x mean wl wr w1 b1 w2 b2 r c := by
  have hpre : ∀ j, pre x' mean' wl wr p j = pre x mean wl wr r j := fun j => by
    unfold pre; simp only [hx, hm]
  have hnrm : nrm x' mean' wl wr p = nrm x mean wl wr r := by
    unfold nrm; simp only [hpre]
  have hact : ∀ j, act x' mean' wl wr p j = act x mean wl wr r j := fun j => by
    unfold act; rw [hpre, hnrm]
  have hhid : ∀ i, hid x' mean' wl wr w1 b1 p i = hid x mean wl wr w1 b1 r i := fun i => by
    unfold hid; simp only [hact]
  have hlogit : ∀ c, logit x' mean' wl wr w1 b1 w2 b2 p c = logit x mean wl wr w1 b1 w2 b2 r c := fun c => by
    unfold logit; simp only [hhid]
  have htop : top x' mean' wl wr w1 b1 w2 b2 p = top x mean wl wr w1 b1 w2 b2 r := by
    unfold top; simp only [hlogit]
  have hsh : ∀ c, shifted x' mean' wl wr w1 b1 w2 b2 p c = shifted x mean wl wr w1 b1 w2 b2 r c := fun c => by
    unfold shifted; rw [hlogit, htop]
  unfold out; simp only [hsh]

end Cert.RowSpec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelRows.lean ====
/-
  The kernel body's stored value, entry by entry. One grid step holds a block of 5000 rows of `x` and of `mean` and the
  four weight arrays whole; what it stores at `(p, c)` is the row function `RowSpec.out` of the block's row `p`:
  each matrix product into a zero accumulator is the sum over the contracted coordinate (a change of float format is
  the identity on the extended reals), the two row reductions are the row's sum and the row's fold of `max`, and the
  keepdims casts and broadcasts only move a row's scalar to every column.
  The body is cut at the same places as `RowSpec`: the two projections added (`vPre`), the normalised rectified row
  (`vAct`), a linear layer (`vLin`, used twice with different widths) and the log-softmax (`vLsm`).
-/
import proofs.«103611_j86466281603776_1_alg».proof.Proof.Gen.KernelIdeal.Value
import proofs.«103611_j86466281603776_1_alg».proof.Proof.RowSpec
import proofs.«103611_j86466281603776_1_alg».proof.Proof.LibRowOps
import proofs.«103611_j86466281603776_1_alg».proof.Proof.LibColumn
import Idealize.ShloMosaic.Lib.ValueLayout

noncomputable section

namespace Cert.KernelIdeal.Rows

open Cert.KernelIdeal Cert.KernelIdeal.Gen Idealize.ShloMosaic Idealize.ShloMosaic.TcCoe Idealize.ShloMosaic.ValueIdx

/-! ## The printed dimension records are the plain product's -/

theorem dot_in_eq : dot_S5000x128_S128x32_S5000x32_1_0_0_1_n_n = DotDims.plain 5000 128 32 := rfl
theorem dot_hid_eq : dot_S5000x32_S32x32_S5000x32_1_0_0_1_n_n = DotDims.plain 5000 32 32 := rfl
theorem dot_out_eq : dot_S5000x32_S32x40_S5000x40_1_0_0_1_n_n = DotDims.plain 5000 32 40 := rfl

/-! ## The body, cut into its stages -/

section Stages
variable {F : FTy → Type} [FloatOps F]

/-- The block's rows of `x` and of `mean` through their two weight arrays, added. -/
def vPre (v0 v2 : Vec F S5000x128 .f32) (v5 v8 : Vec F S128x32 .f32) : FVec F S5000x32 .f32 :=
  addf
    (matmul dot_S5000x128_S128x32_S5000x32_1_0_0_1_n_n none (truncf .bf16 v0 bitsLt_bf16_f32)
      (truncf .bf16 (shapeCast S128x32 v5 shapeCasts_S128x32_S128x32) bitsLt_bf16_f32) (constant S5000x32 .f32 0x00000000#32))
    (matmul dot_S5000x128_S128x32_S5000x32_1_0_0_1_n_n none
      (truncf .bf16 (shapeCast S5000x128 v2 shapeCasts_S5000x128_S5000x128) bitsLt_bf16_f32)
      (truncf .bf16 (shapeCast S128x32 v8 shapeCasts_S128x32_S128x32) bitsLt_bf16_f32) (constant S5000x32 .f32 0x00000000#32))

/-- Each row divided by its norm (kept above the word of `1e-12`), then rectified. -/
def vAct (h : FVec F S5000x32 .f32) : FVec F S5000x32 .f32 :=
  maximumf
    (divf h (broadcastTo S5000x32
      (maximumf (sqrt (shapeCast S5000x1
          (multiReduction .add [1] S5000 (mulf h h) 0x00000000#32 reduces_S5000x32_S5000 (.inl rfl) rfl) shapeCasts_S5000_S5000x1))
        (broadcast S5000x1 (Scalar.ofBits .f32 0x2B8CBCCC#32))) broadcasts_S5000x1_S5000x32))
    (broadcast S5000x32 (Scalar.ofBits .f32 0x00000000#32))

/-- The first linear layer: the rectified rows through `w1`, the bias added to every row. -/
def vHid (a : FVec F S5000x32 .f32) (v25 : Vec F S32x32 .f32) (v28 : Vec F S32 .f32) : FVec F S5000x32 .f32 :=
  addf
    (matmul dot_S5000x32_S32x32_S5000x32_1_0_0_1_n_n none (truncf .bf16 a bitsLt_bf16_f32)
      (truncf .bf16 (shapeCast S32x32 v25 shapeCasts_S32x32_S32x32) bitsLt_bf16_f32) (constant S5000x32 .f32 0x00000000#32))
    (broadcastTo S5000x32 (shapeCast S1x32 v28 shapeCasts_S32_S1x32) broadcasts_S1x32_S5000x32)

/-- The second linear layer: the forty logits of every row. -/
def vLogit (v33 : FVec F S5000x32 .bf16) (v36 : FVec F S32x40 .bf16) (v37 : Vec F S40 .f32) : FVec F S5000x40 .f32 :=
  addf (matmul dot_S5000x32_S32x40_S5000x40_1_0_0_1_n_n none v33 v36 (constant S5000x40 .f32 0x00000000#32))
    (broadcastTo S5000x40 (shapeCast S1x40 v37 shapeCasts_S40_S1x40) broadcasts_S1x40_S5000x40)

/-- A row's logits less their maximum. -/
def vShift (z : FVec F S5000x40 .f32) : FVec F S5000x40 .f32 :=
  subf z (broadcastTo S5000x40 (shapeCast S5000x1
    (multiReduction .maximumf [1] S5000 z 0xFF800000#32 reduces_S5000x40_S5000 (.inl rfl) rfl) shapeCasts_S5000_S5000x1)
    broadcasts_S5000x1_S5000x40)

/-- The shifted logits less the logarithm of the row's sum of their exponentials. -/
def vLsm (s : FVec F S5000x40 .f32) : FVec F S5000x40 .f32 :=
  subf s (broadcastTo S5000x40 (log (shapeCast S5000x1
    (multiReduction .add [1] S5000 (exp s) 0x00000000#32 reduces_S5000x40_S5000 (.inl rfl) rfl) shapeCasts_S5000_S5000x1))
    broadcasts_S5000x1_S5000x40)

/-- The payload of the hidden layer is its three stages composed (and a change of float format). -/
theorem pay2_eq (v0 v2 : Vec F S5000x128 .f32) (v5 v8 : Vec F S128x32 .f32) (v25 : Vec F S32x32 .f32) (v28 : Vec F S32 .f32) :
    k0_pay2 v0 v2 v5 v8 v25 v28 = truncf .bf16 (vHid (vAct (vPre v0 v2 v5 v8)) v25 v28) bitsLt_bf16_f32 := rfl

/-- The payload of the second weight array is that array in another float format. -/
theorem pay3_eq (v34 : Vec F S32x40 .f32) :
    k0_pay3 v34 = truncf .bf16 (shapeCast S32x40 v34 shapeCasts_S32x40_S32x40) bitsLt_bf16_f32 := rfl

/-- The stored value is the log-softmax of the logits. -/
theorem pay1_eq (v33 : FVec F S5000x32 .bf16) (v36 : FVec F S32x40 .bf16) (v37 : Vec F S40 .f32) :
    k0_pay1 v33 v36 v37 (constant S5000x40 .f32 0x00000000#32) = vLsm (vShift (vLogit v33 v36 v37)) := rfl

end Stages

/-! ## Each stage at an entry, on the extended reals -/

theorem vPre_apply (v0 v2 : Vec Ideal S5000x128 .f32) (v5 v8 : Vec Ideal S128x32 .f32) (p : Fin 5000) (j : Fin 32) :
    vPre (F := Ideal) v0 v2 v5 v8 (ix2 p j) = RowSpec.pre v0 v2 v5 v8 p j := by
  unfold vPre RowSpec.pre
  rw [shapeCast_self, shapeCast_self, shapeCast_self]
  simp only [matmul, dot_in_eq]
  refine (addf_apply _ _ _).trans ?_
  rw [LibRowOps.matmul_plain_zero_apply, LibRowOps.matmul_plain_zero_apply]
  rfl

theorem vAct_apply (h : FVec Ideal S5000x32 .f32) (p : Fin 5000) (j : Fin 32) :
    vAct (F := Ideal) h (ix2 p j)
      = max (Ideal.div (h (ix2 p j))
          (max (Ideal.sqrt (∑ j' : Fin 32, h (ix2 p j') * h (ix2 p j'))) (Ideal.ofBits .f32 0x2B8CBCCC#32)))
        (Ideal.ofBits .f32 0x00000000#32) := by
  unfold vAct
  refine (maximumf_apply _ _ _).trans (congrArg₂ max ?_ rfl)
  refine (divf_apply _ _ _).trans (congrArg (Ideal.div (h (ix2 p j))) ?_)
  refine (LibColumn.broadcastTo_a1_ab_apply _ _ p j).trans ?_
  refine (maximumf_apply _ _ _).trans (congrArg₂ max ?_ rfl)
  refine congrArg Ideal.sqrt ?_
  refine (LibColumn.shapeCast_a_a1_apply _ _ p 0).trans ?_
  exact LibRowOps.rowSum_apply _ _ _ _ _ p

theorem vHid_apply (a : FVec Ideal S5000x32 .f32) (v25 : Vec Ideal S32x32 .f32) (v28 : Vec Ideal S32 .f32) (p : Fin 5000) (i : Fin 32) :
    vHid (F := Ideal) a v25 v28 (ix2 p i) = (∑ j : Fin 32, a (ix2 p j) * v25 (ix2 j i)) + v28 (ix1 i) := by
  unfold vHid
  rw [shapeCast_self]
  simp only [matmul, dot_hid_eq]
  refine (addf_apply _ _ _).trans ?_
  rw [LibRowOps.matmul_plain_zero_apply, broadcastTo_1b_ab_apply, shapeCast_a_1a_apply]
  rfl

theorem vLogit_apply (v33 : FVec Ideal S5000x32 .bf16) (v36 : FVec Ideal S32x40 .bf16) (v37 : Vec Ideal S40 .f32) (p : Fin 5000) (c : Fin 40) :
    vLogit (F := Ideal) v33 v36 v37 (ix2 p c) = (∑ i : Fin 32, v33 (ix2 p i) * v36 (ix2 i c)) + v37 (ix1 c) := by
  unfold vLogit
  simp only [matmul, dot_out_eq]
  refine (addf_apply _ _ _).trans ?_
  rw [LibRowOps.matmul_plain_zero_apply, broadcastTo_1b_ab_apply, shapeCast_a_1a_apply]

theorem vShift_apply (z : FVec Ideal S5000x40 .f32) (p : Fin 5000) (c : Fin 40) :
    vShift (F := Ideal) z (ix2 p c)
      = z (ix2 p c) - (Finset.univ : Finset (Fin 40)).fold max (Ideal.ofBits .f32 0xFF800000#32) (fun c' => z (ix2 p c')) := by
  unfold vShift
  refine (subf_apply _ _ _).trans (congrArg (z (ix2 p c) - ·) ?_)
  refine (LibColumn.broadcastTo_a1_ab_apply _ _ p c).trans ?_
  refine (LibColumn.shapeCast_a_a1_apply _ _ p 0).trans ?_
  exact LibRowOps.rowMax_apply _ _ _ _ _ p

theorem vLsm_apply (s : FVec Ideal S5000x40 .f32) (p : Fin 5000) (c : Fin 40) :
    vLsm (F := Ideal) s (ix2 p c) = s (ix2 p c) - Ideal.log (∑ c' : Fin 40, Ideal.exp (s (ix2 p c'))) := by
  unfold vLsm
  refine (subf_apply _ _ _).trans (congrArg (s (ix2 p c) - ·) ?_)
  refine (LibColumn.broadcastTo_a1_ab_apply _ _ p c).trans ?_
  refine congrArg Ideal.log ?_
  refine (LibColumn.shapeCast_a_a1_apply _ _ p 0).trans ?_
  exact LibRowOps.rowSum_apply _ _ _ _ _ p

/-! ## The stored block is the row function of the loaded blocks -/

/-- Entry `(p, c)` of what one grid step stores: `RowSpec.out` at row `p` of the blocks it loaded. -/
theorem stored_apply (x0 x1 : Vec Ideal S5000x128 .f32) (x2 x3 : Vec Ideal S128x32 .f32) (x4 : Vec Ideal S32x32 .f32)
    (x5 : Vec Ideal S32 .f32) (x6 : Vec Ideal S32x40 .f32) (x7 : Vec Ideal S40 .f32) (p : Fin 5000) (c : Fin 40) :
    k0_pay1 (F := Ideal) (k0_pay2 x0 x1 x2 x3 x4 x5) (k0_pay3 x6) x7 (constant S5000x40 .f32 0x00000000#32) (ix2 p c)
      = RowSpec.out x0 x1 x2 x3 x4 x5 x6 x7 p c := by
  rw [pay1_eq, pay2_eq, pay3_eq, shapeCast_self]
  have hact : ∀ j, vAct (F := Ideal) (vPre x0 x1 x2 x3) (ix2 p j) = RowSpec.act x0 x1 x2 x3 p j := fun j => by
    rw [vAct_apply]; unfold RowSpec.act RowSpec.nrm; simp only [vPre_apply]
  have hhid : ∀ i, vHid (F := Ideal) (vAct (vPre x0 x1 x2 x3)) x4 x5 (ix2 p i) = RowSpec.hid x0 x1 x2 x3 x4 x5 p i := fun i => by
    rw [vHid_apply]; unfold RowSpec.hid; simp only [hact]
  have hlogit : ∀ c', vLogit (F := Ideal) (truncf .bf16 (vHid (vAct (vPre x0 x1 x2 x3)) x4 x5) bitsLt_bf16_f32)
      (truncf .bf16 x6 bitsLt_bf16_f32) x7 (ix2 p c') = RowSpec.logit x0 x1 x2 x3 x4 x5 x6 x7 p c' := fun c' => by
    rw [vLogit_apply]; unfold RowSpec.logit; simp only [truncf_apply, hhid]
  have hsh : ∀ c', vShift (F := Ideal) (vLogit (truncf .bf16 (vHid (vAct (vPre x0 x1 x2 x3)) x4 x5) bitsLt_bf16_f32)
      (truncf .bf16 x6 bitsLt_bf16_f32) x7) (ix2 p c') = RowSpec.shifted x0 x1 x2 x3 x4 x5 x6 x7 p c' := fun c' => by
    rw [vShift_apply]; unfold RowSpec.shifted RowSpec.top; simp only [hlogit]
  rw [vLsm_apply]; unfold RowSpec.out; simp only [hsh]

end Cert.KernelIdeal.Rows

end
-- ==== Proof.KernelArray.lean ====
/-
  From blocks to the array. The grid has ten points; point `t` stages rows `5000·t … 5000·t + 4999` of `x` and of
  `mean`, the four weight arrays whole, and writes back the same rows of the result. What it writes back is
  `RowSpec.out` of its own rows (Proof/KernelRows.lean), and `RowSpec.out` never mixes rows (`RowSpec.out_congr`), so
  every block it writes is a block of ONE array: `RowSpec.arr` of the arrays as the region finds them. The ten blocks
  cover the 50000 rows (row `r` lies in block `r / 5000`), so the result array after the run is that array.
-/
import proofs.«103611_j86466281603776_1_alg».proof.Proof.KernelRows

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the ten grid points: the two row-blocked inputs move with the output along the rows,
    nothing moves along the columns, and the six resident operands stay at block zero. -/
theorem index_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The output's block index along the rows stays below the ten blocks. -/
theorem index_bound : ∀ t : Fin cfg0.N, win0_8.index t (0 : Fin 2) ≤ 9 :=
  (by decide +kernel : ∀ t : Fin grid0.N, _)

/-- Every block of rows is some point's. -/
theorem index_onto : ∀ q0 : Fin 10, ∃ t : Fin cfg0.N, win0_8.index t = ![q0.val, 0] :=
  (by decide +kernel : ∀ q0 : Fin 10, ∃ t : Fin grid0.N, win0_8.index t = ![q0.val, 0])

/-- The result array: `RowSpec.arr` of the arrays the region finds — `x`, the aggregated `mean`, the transposed weights
    and the biases. -/
def result (c : Dev nD) : S50000x40.Idx → EReal :=
  RowSpec.arr (n := 50000) (V m c main_arg0) (V m c main_v22) (V m c main_v23) (V m c main_v24) (V m c main_v25)
    (V m c main_arg5) (V m c main_v26) (V m c main_arg7)

/-! ## A resident operand's block is its whole array -/

theorem wl_blk (c : Dev nD) (t : Fin cfg0.N) : (iblk m c 2 t : S128x32.Idx → EReal) = V m c main_v23 := by
  obtain ⟨-, -, -, -, -, e0, e1, -⟩ := index_facts t
  funext y
  show V m c main_v23 (((cfg0.win 2).blk t).view.emb y) = V m c main_v23 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 32 + 1 * (y 1).val = (y 1).val; omega

theorem wr_blk (c : Dev nD) (t : Fin cfg0.N) : (iblk m c 3 t : S128x32.Idx → EReal) = V m c main_v24 := by
  obtain ⟨-, -, -, -, -, -, -, e0, e1, -⟩ := index_facts t
  funext y
  show V m c main_v24 (((cfg0.win 3).blk t).view.emb y) = V m c main_v24 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 32 + 1 * (y 1).val = (y 1).val; omega

theorem w1_blk (c : Dev nD) (t : Fin cfg0.N) : (iblk m c 4 t : S32x32.Idx → EReal) = V m c main_v25 := by
  obtain ⟨-, -, -, -, -, -, -, -, -, e0, e1, -⟩ := index_facts t
  funext y
  show V m c main_v25 (((cfg0.win 4).blk t).view.emb y) = V m c main_v25 y
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 32 + 1 * (y 1).val = (y 1).val; omega

theorem b1_blk (c : Dev nD) (t : Fin cfg0.N) : (iblk m c 5 t : S32.Idx → EReal) = V m c main_arg5 := by
  obtain ⟨-, -, -, -, -, -, -, -, -, -, -, e0, -⟩ := index_facts t
  funext y
  show V m c main_arg5 (((cfg0.win 5).blk t).view.emb y) = V m c main_arg5 y
  refine congrArg _ (funext fun a => Fin.ext ?_)
  match a with
  | ⟨0, _⟩ => show win0_5.index t (0 : Fin 1) * 32 + 1 * (y 0).val = (y 0).val; omega

theorem w2_blk (c : Dev nD) (t : Fin cfg0.N) : (iblk m c 6 t : S32x40.Idx → EReal) = V m c main_v26 := by
  obtain ⟨-, -, -, -, -, -, -, -, -, -, -, -, e0, e1, -⟩ := index_facts t
  funext y
  show V m c main_v26 (((cfg0.win 6).blk t).view.emb y) = V m c main_v26 y
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 40 + 1 * (y 1).val = (y 1).val; omega

theorem b2_blk (c : Dev nD) (t : Fin cfg0.N) : (iblk m c 7 t : S40.Idx → EReal) = V m c main_arg7 := by
  obtain ⟨-, -, -, -, -, -, -, -, -, -, -, -, -, -, e0⟩ := index_facts t
  funext y
  show V m c main_arg7 (((cfg0.win 7).blk t).view.emb y) = V m c main_arg7 y
  refine congrArg _ (funext fun a => Fin.ext ?_)
  match a with
  | ⟨0, _⟩ => show win0_7.index t (0 : Fin 1) * 40 + 1 * (y 0).val = (y 0).val; omega

/-! ## What a point writes back is its block of the result array -/

/-- The row of the arrays that row `p` of point `t`'s blocks is. -/
def rowOf (t : Fin cfg0.N) (p : Fin 5000) : Fin 50000 :=
  ⟨win0_8.index t (0 : Fin 2) * 5000 + p.val, by
    have h := (index_bound t); have := p.isLt; omega⟩

/-- An entry of point `t`'s output block sits at its own column of row `rowOf t p` of the array. -/
theorem out_emb (t : Fin cfg0.N) (p : Fin 5000) (q : Fin 40) :
    ((cfg0.win 8).blk t).view.emb (ix2 p q) = ix2 (rowOf t p) q := by
  obtain ⟨-, -, -, -, e1, -⟩ := index_facts t
  funext a; apply Fin.ext
  match a with
  | ⟨0, _⟩ => show win0_8.index t (0 : Fin 2) * 5000 + 1 * p.val = win0_8.index t (0 : Fin 2) * 5000 + p.val; omega
  | ⟨1, _⟩ => show win0_8.index t (1 : Fin 2) * 40 + 1 * q.val = q.val; omega

/-- So does an entry of its block of `x` … -/
theorem x_emb (t : Fin cfg0.N) (p : Fin 5000) (k : Fin 128) :
    ((cfg0.win 0).blk t).view.emb (ix2 p k) = ix2 (rowOf t p) k := by
  obtain ⟨e0, e1, -⟩ := index_facts t
  funext a; apply Fin.ext
  match a with
  | ⟨0, _⟩ => show win0_0.index t (0 : Fin 2) * 5000 + 1 * p.val = win0_8.index t (0 : Fin 2) * 5000 + p.val; omega
  | ⟨1, _⟩ => show win0_0.index t (1 : Fin 2) * 128 + 1 * k.val = k.val; omega

/-- … and of its block of `mean`. -/
theorem mean_emb (t : Fin cfg0.N) (p : Fin 5000) (k : Fin 128) :
    ((cfg0.win 1).blk t).view.emb (ix2 p k) = ix2 (rowOf t p) k := by
  obtain ⟨-, -, e0, e1, -⟩ := index_facts t
  funext a; apply Fin.ext
  match a with
  | ⟨0, _⟩ => show win0_1.index t (0 : Fin 2) * 5000 + 1 * p.val = win0_8.index t (0 : Fin 2) * 5000 + p.val; omega
  | ⟨1, _⟩ => show win0_1.index t (1 : Fin 2) * 128 + 1 * k.val = k.val; omega

/-- Reading ANY array through point `t`'s block of window 0 at `(p, k)` gives the array at row `rowOf t p`. (Stated for an
    arbitrary array, so that nothing here ever evaluates the arrays the region finds.) -/
theorem read_blk0 (A : S50000x128.Idx → EReal) (t : Fin cfg0.N) (p : Fin 5000) (k : Fin 128) :
    ((cfg0.win 0).blk t).view.read (Elt Ideal) A (ix2 p k) = A (ix2 (rowOf t p) k) := by
  show A (((cfg0.win 0).blk t).view.emb (ix2 p k)) = _
  rw [x_emb]

theorem read_blk1 (A : S50000x128.Idx → EReal) (t : Fin cfg0.N) (p : Fin 5000) (k : Fin 128) :
    ((cfg0.win 1).blk t).view.read (Elt Ideal) A (ix2 p k) = A (ix2 (rowOf t p) k) := by
  show A (((cfg0.win 1).blk t).view.emb (ix2 p k)) = _
  rw [mean_emb]

theorem x_row (c : Dev nD) (t : Fin cfg0.N) (p : Fin 5000) (k : Fin 128) :
    (iblk m c 0 t : S5000x128.Idx → EReal) (ix2 p k) = V m c main_arg0 (ix2 (rowOf t p) k) :=
  read_blk0 (V m c main_arg0) t p k

theorem mean_row (c : Dev nD) (t : Fin cfg0.N) (p : Fin 5000) (k : Fin 128) :
    (iblk m c 1 t : S5000x128.Idx → EReal) (ix2 p k) = V m c main_v22 (ix2 (rowOf t p) k) :=
  read_blk1 (V m c main_v22) t p k

/-- WHAT POINT `t` WRITES BACK is block `t` of the result array. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zero2]
  simp only [View.ld_unit_zero (S := S5000x128) zero2, View.ld_unit_zero (S := S128x32) zero2,
    View.ld_unit_zero (S := S32x32) zero2, View.ld_unit_zero (S := S32) zero1, View.ld_unit_zero (S := S32x40) zero2,
    View.ld_unit_zero (S := S40) zero1]
  show (k0_pay1 (F := Ideal) (k0_pay2 (iblk m c 0 t) (iblk m c 1 t) (iblk m c 2 t) (iblk m c 3 t) (iblk m c 4 t) (iblk m c 5 t))
      (k0_pay3 (iblk m c 6 t)) (iblk m c 7 t) (constant S5000x40 .f32 0x00000000#32) : S5000x40.Idx → EReal)
    = fun j : S5000x40.Idx => result m c (((cfg0.win 8).blk t).view.emb j)
  funext j
  obtain ⟨p, q, rfl⟩ : ∃ (p : Fin 5000) (q : Fin 40), j = ix2 p q := ⟨j 0, j 1, eq_ix2 j⟩
  refine (Rows.stored_apply (iblk m c 0 t) (iblk m c 1 t) (iblk m c 2 t) (iblk m c 3 t) (iblk m c 4 t) (iblk m c 5 t)
    (iblk m c 6 t) (iblk m c 7 t) p q).trans ?_
  rw [wl_blk, wr_blk, w1_blk, b1_blk, w2_blk, b2_blk, out_emb]
  unfold result
  rw [RowSpec.arr_apply]
  exact RowSpec.out_congr (n := 50000) (n' := 5000) (V m c main_arg0) (V m c main_v22) (iblk m c 0 t) (iblk m c 1 t)
    (V m c main_v23) (V m c main_v24) (V m c main_v25) (V m c main_arg5) (V m c main_v26) (V m c main_arg7) p (rowOf t p)
    (fun k => x_row m c t p k) (fun k => mean_row m c t p k) q

/-! ## The blocks cover the array -/

theorem mem_blk (t : Fin cfg0.N) (i : S50000x40.Idx) :
    i ∈ ((cfg0.win 8).blk t).view.set ↔ ∀ a : Fin 2, win0_8.index t a * S5000x40.size a ≤ (i a).val ∧ (i a).val < win0_8.index t a * S5000x40.size a + S5000x40.size a := by
  show i ∈ ((View.whole main_v27).slice (win0_8.rect t)).set ↔ _
  rw [View.set_slice_whole, Rect.mem_set_unit]
  exact Iff.rfl

theorem cover (i : S50000x40.Idx) : ∃ t : Fin cfg0.N, (cfg0.win 8).flush t = true ∧ i ∈ ((cfg0.win 8).blk t).view.set := by
  have hi0 : (i 0).val < 50000 := (i 0).isLt
  have hi1 : (i 1).val < 40 := (i 1).isLt
  obtain ⟨t, ht⟩ := index_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 40 ≤ (i 1).val ∧ (i 1).val < win0_8.index t (1 : Fin 2) * 40 + 40; omega

/-- THE RESULT ARRAY after the run. -/
theorem final (c : Dev nD) : (dats m 0 c).arrAt 8 cfg0.N = result m c :=
  (dats m 0 c).arrAt_eq_of_cover 8 (result m c) (fun t _ => flushed_eq m c t) cover

/-- The run, with the result array named and the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.KernelHost.lean ====
/-
  What the kernel's region finds in the buffers the host operations before it wrote, as functions of the launch
  contents: `mean` (the same gather / scatter-mean over the edge list the reference computes) and the four weight
  arrays transposed.
-/
import proofs.«103611_j86466281603776_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The edge list's source row, with a negative index wrapped once (jax's indexing), as the gather's start indices. -/
def srcIdx (e : (⟨S2x800000, .i32⟩ : BufTy).Contents (Elt F)) : (⟨S800000x1, .i32⟩ : BufTy).Contents (Elt F) :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The edge list's target row as scatter indices. -/
def dstIdx (e : (⟨S2x800000, .i32⟩ : BufTy).Contents (Elt F)) : (⟨S800000x1, .i32⟩ : BufTy).Contents (Elt F) :=
  broadcastInDim S800000x1 ![0] bcast_S800000_S800000x1_0
    (shapeCast S800000 (extractStridedSlice S1x800000 ![1, 0] e slices_S2x800000_S1x800000_1_0) shapeCasts_S1x800000_S800000)

/-- The mean of every node's in-neighbours' rows (zero for a node with none: the count is kept at least one). -/
def kerMean (x : Vec F S50000x128 .f32) (e : (⟨S2x800000, .i32⟩ : BufTy).Contents (Elt F)) : Vec F S50000x128 .f32 :=
  Host.divf
    (Host.scatterAdd scatter_S50000x128_S800000x1_S800000x128_1_0_0_1
      (broadcastInDim S50000x128 ![] bcast_S_S50000x128 (constant S_ .f32 0x00000000#32)) (dstIdx e)
      (Host.gather gather_S50000x128_S800000x1_S800000x128_1_0_n_n_0_1_1128 x (srcIdx e)))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32)) (dstIdx e)
            (broadcastInDim S800000 ![] bcast_S_S800000 (constant S_ .f32 0x3F800000#32)))
          (broadcastInDim S50000 ![] bcast_S_S50000 (constant S_ .f32 0x3F800000#32)))))

variable (m : (ℓ : Loc nD τ sig) → Buf (Elt F) ℓ)

theorem V_mean (c : Dev nD) :
    V m c main_v22 = kerMean (m ((c : Thread nD τ).loc main_arg0)) (m ((c : Thread nD τ).loc main_arg1)) := by
  dsimp only [V, hostOps0]; after_results_simp; rfl

theorem V_wl (c : Dev nD) :
    V m c main_v23 = transpose S128x32 [1, 0] (m ((c : Thread nD τ).loc main_arg2)) transposes_S32x128_S128x32_1_0 := by
  dsimp only [V, hostOps0]; after_results_simp

theorem V_wr (c : Dev nD) :
    V m c main_v24 = transpose S128x32 [1, 0] (m ((c : Thread nD τ).loc main_arg3)) transposes_S32x128_S128x32_1_0 := by
  dsimp only [V, hostOps0]; after_results_simp

theorem V_w1 (c : Dev nD) :
    V m c main_v25 = transpose S32x32 [1, 0] (m ((c : Thread nD τ).loc main_arg4)) transposes_S32x32_S32x32_1_0 := by
  dsimp only [V, hostOps0]; after_results_simp

theorem V_w2 (c : Dev nD) :
    V m c main_v26 = transpose S32x40 [1, 0] (m ((c : Thread nD τ).loc main_arg6)) transposes_S40x32_S32x40_1_0 := by
  dsimp only [V, hostOps0]; after_results_simp

end Cert.KernelIdeal.HostSide

end
-- ==== Proof.ReferenceStages.lean ====
/-
  The reference's result buffer as stages. Its @main is 72 host operations in a row; cut into eight stretches, each
  stretch leaves in ONE buffer a pure function of earlier buffers and of argument arrays:
  `mean` (the gather / scatter-mean over the edge list) ← `x`, `edge_index`; the two projections added ← `x`, `mean`,
  `W_l`, `W_r`; the normalised rectified rows ← the projections; the two linear layers ← their input and their weights;
  the log-softmax (a row maximum, the shift by it, the log-sum-exp) ← the logits. No operation writes an argument array, so each stretch finds the arguments as
  launched. Composing the eight gives the result buffer after the whole line as one term of the launch contents
  (`result_eq`), which is what the run's fold reads at that buffer.
-/
import proofs.«103611_j86466281603776_1_alg».proof.Proof.ReferenceRun
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The line, cut -/

/-- Operations 1–29: the edge list split into sources and targets, the sources' rows gathered, summed into their targets' rows and divided by the targets' in-degrees (at least one): `mean`. -/
abbrev opsMean : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- Operations 30–34: `x` and `mean` through their transposed weight arrays, added. -/
abbrev opsPre : List (HloOp τ sig (Elt F)) :=
  [ unary main_arg2 main_v23 ((transpose S128x32 [1, 0] · transposes_S32x128_S128x32_1_0) : (⟨S32x128, .f32⟩ : BufTy).Contents (Elt F) → (⟨S128x32, .f32⟩ : BufTy).Contents (Elt F)),
    binary main_arg0 main_v23 main_v24 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg3 main_v25 ((transpose S128x32 [1, 0] · transposes_S32x128_S128x32_1_0) : (⟨S32x128, .f32⟩ : BufTy).Contents (Elt F) → (⟨S128x32, .f32⟩ : BufTy).Contents (Elt F)),
    binary main_v22 main_v25 main_v26 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    binary main_v24 main_v26 main_v27 (addf : (⟨S50000x32, .f32⟩ : BufTy).Contents (Elt F) → (⟨S50000x32, .f32⟩ : BufTy).Contents (Elt F) → (⟨S50000x32, .f32⟩ : BufTy).Contents (Elt F)) ]

/-- Operations 35–47: each row divided by its norm and rectified (the inlined `relu`). -/
abbrev opsAct : List (HloOp τ sig (Elt F)) :=
  [ binary main_v27 main_v27 main_v28 (mulf : (⟨S50000x32, .f32⟩ : BufTy).Contents (Elt F) → (⟨S50000x32, .f32⟩ : BufTy).Contents (Elt F) → (⟨S50000x32, .f32⟩ : BufTy).Contents (Elt F)),
    nullary main_cst_4 (constant S_ .f32 0x00000000#32),
    binary main_v28 main_cst_4 main_v29 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v29 main_v30 (broadcastInDim S50000x1 ![0] bcast_S50000_S50000x1_0 : (⟨S50000, .f32⟩ : BufTy).Contents (Elt F) → (⟨S50000x1, .f32⟩ : BufTy).Contents (Elt F)),
    unary main_v30 main_v31 (Host.sqrt : (⟨S50000x1, .f32⟩ : BufTy).Contents (Elt F) → (⟨S50000x1, .f32⟩ : BufTy).Contents (Elt F)),
    nullary main_cst_5 (constant S_ .f32 0x2B8CBCCC#32),
    unary main_cst_5 main_v32 (broadcastInDim S50000x1 ![] bcast_S_S50000x1 : (⟨S_, .f32⟩ : BufTy).Contents (Elt F) → (⟨S50000x1, .f32⟩ : BufTy).Contents (Elt F)),
    binary main_v31 main_v32 main_v33 (maximumf : (⟨S50000x1, .f32⟩ : BufTy).Contents (Elt F) → (⟨S50000x1, .f32⟩ : BufTy).Contents (Elt F) → (⟨S50000x1, .f32⟩ : BufTy).Contents (Elt F)),
    unary main_v33 main_v34 (broadcastInDim S50000x32 ![0, 1] bcast_S50000x1_S50000x32_0_1 : (⟨S50000x1, .f32⟩ : BufTy).Contents (Elt F) → (⟨S50000x32, .f32⟩ : BufTy).Contents (Elt F)),
    binary main_v27 main_v34 main_v35 (Host.divf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v35) (TRef.of (T := ⟨S50000x32, .f32⟩) main_call0_v0) (TRef.of (T := ⟨S50000x32, .f32⟩) main_v36) maximumf ]

/-- Operations 48–52: the first linear layer. -/
abbrev opsHid : List (HloOp τ sig (Elt F)) :=
  [ unary main_arg4 main_v37 ((transpose S32x32 [1, 0] · transposes_S32x32_S32x32_1_0) : (⟨S32x32, .f32⟩ : BufTy).Contents (Elt F) → (⟨S32x32, .f32⟩ : BufTy).Contents (Elt F)),
    binary main_v36 main_v37 main_v38 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg5 main_v39 (broadcastInDim S1x32 ![1] bcast_S32_S1x32_1 : (⟨S32, .f32⟩ : BufTy).Contents (Elt F) → (⟨S1x32, .f32⟩ : BufTy).Contents (Elt F)),
    unary main_v39 main_v40 (broadcastInDim S50000x32 ![0, 1] bcast_S1x32_S50000x32_0_1 : (⟨S1x32, .f32⟩ : BufTy).Contents (Elt F) → (⟨S50000x32, .f32⟩ : BufTy).Contents (Elt F)),
    binary main_v38 main_v40 main_v41 (addf : (⟨S50000x32, .f32⟩ : BufTy).Contents (Elt F) → (⟨S50000x32, .f32⟩ : BufTy).Contents (Elt F) → (⟨S50000x32, .f32⟩ : BufTy).Contents (Elt F)) ]

/-- Operations 53–57: the second linear layer. -/
abbrev opsLogit : List (HloOp τ sig (Elt F)) :=
  [ unary main_arg6 main_v42 ((transpose S32x40 [1, 0] · transposes_S40x32_S32x40_1_0) : (⟨S40x32, .f32⟩ : BufTy).Contents (Elt F) → (⟨S32x40, .f32⟩ : BufTy).Contents (Elt F)),
    binary main_v41 main_v42 main_v43 ((fun l r => Host.dotGeneral dot_S50000x32_S32x40_S50000x40_1_0_0_1_n_n none l r) : (⟨S50000x32, .f32⟩ : BufTy).Contents (Elt F) → (⟨S32x40, .f32⟩ : BufTy).Contents (Elt F) → (⟨S50000x40, .f32⟩ : BufTy).Contents (Elt F)),
    unary main_arg7 main_v44 (broadcastInDim S1x40 ![1] bcast_S40_S1x40_1 : (⟨S40, .f32⟩ : BufTy).Contents (Elt F) → (⟨S1x40, .f32⟩ : BufTy).Contents (Elt F)),
    unary main_v44 main_v45 (broadcastInDim S50000x40 ![0, 1] bcast_S1x40_S50000x40_0_1 : (⟨S1x40, .f32⟩ : BufTy).Contents (Elt F) → (⟨S50000x40, .f32⟩ : BufTy).Contents (Elt F)),
    binary main_v43 main_v45 main_v46 (addf : (⟨S50000x40, .f32⟩ : BufTy).Contents (Elt F) → (⟨S50000x40, .f32⟩ : BufTy).Contents (Elt F) → (⟨S50000x40, .f32⟩ : BufTy).Contents (Elt F)) ]

/-- Operations 58–59, the first of the inlined `log_softmax`: each row's largest logit. -/
abbrev opsTop : List (HloOp τ sig (Elt F)) :=
  [ TRef.nullary (TRef.of (T := ⟨S_, .f32⟩) main_call1_cst) (constant S_ .f32 0xFF800000#32),
    TRef.binary (TRef.of (T := ⟨S50000x40, .f32⟩) main_v46) (TRef.of (T := ⟨S_, .f32⟩) main_call1_cst) (TRef.of (T := ⟨S50000, .f32⟩) main_call1_v0) (fun x v => Host.reduce FloatOps.maximumf x v reducesTo_S50000x40_S50000_d1 h_S_) ]

/-- Operations 60–65: each row's logits less that maximum. -/
abbrev opsShift : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v46) (TRef.of (T := ⟨S50000x40, .f32⟩) main_call1_v4) (TRef.of (T := ⟨S50000x40, .f32⟩) main_call1_v5) subf ]

/-- Operations 66–72: the shifted logits less the logarithm of the row's sum of exponentials. -/
abbrev opsLsm : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v47) subf ]

/-- The whole line is the eight stretches in a row. -/
theorem ops_eq : (ValueP.ops : List (HloOp τ sig (Elt F))) = opsMean ++ opsPre ++ opsAct ++ opsHid ++ opsLogit ++ opsTop ++ opsShift ++ opsLsm := rfl

/-! ## What each stretch computes -/

/-- The edge list's source row, with a negative index wrapped once (jax's indexing), as the gather's start indices. -/
def srcIdx (e : (⟨S2x800000, .i32⟩ : BufTy).Contents (Elt F)) : (⟨S800000x1, .i32⟩ : BufTy).Contents (Elt F) :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The edge list's target row as scatter indices. -/
def dstIdx (e : (⟨S2x800000, .i32⟩ : BufTy).Contents (Elt F)) : (⟨S800000x1, .i32⟩ : BufTy).Contents (Elt F) :=
  broadcastInDim S800000x1 ![0] bcast_S800000_S800000x1_0
    (shapeCast S800000 (extractStridedSlice S1x800000 ![1, 0] e slices_S2x800000_S1x800000_1_0) shapeCasts_S1x800000_S800000)

/-- The mean of every node's in-neighbours' rows (zero for a node with none: the count is kept at least one). -/
def refMean (x : Vec F S50000x128 .f32) (e : (⟨S2x800000, .i32⟩ : BufTy).Contents (Elt F)) : Vec F S50000x128 .f32 :=
  Host.divf
    (Host.scatterAdd scatter_S50000x128_S800000x1_S800000x128_1_0_0_1
      (broadcastInDim S50000x128 ![] bcast_S_S50000x128 (constant S_ .f32 0x00000000#32)) (dstIdx e)
      (Host.gather gather_S50000x128_S800000x1_S800000x128_1_0_n_n_0_1_1128 x (srcIdx e)))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32)) (dstIdx e)
            (broadcastInDim S800000 ![] bcast_S_S800000 (constant S_ .f32 0x3F800000#32)))
          (broadcastInDim S50000 ![] bcast_S_S50000 (constant S_ .f32 0x3F800000#32)))))

/-- `x` and `mean` through the transposed `W_l` and `W_r`, added. -/
def refPre (x mean : Vec F S50000x128 .f32) (wl wr : Vec F S32x128 .f32) : Vec F S50000x32 .f32 :=
  addf
    (Host.dotGeneral dot_S50000x128_S128x32_S50000x32_1_0_0_1_n_n none x (transpose S128x32 [1, 0] wl transposes_S32x128_S128x32_1_0))
    (Host.dotGeneral dot_S50000x128_S128x32_S50000x32_1_0_0_1_n_n none mean (transpose S128x32 [1, 0] wr transposes_S32x128_S128x32_1_0))

/-- Each row divided by its norm (kept above the word of `1e-12`), then rectified. -/
def refAct (h : Vec F S50000x32 .f32) : Vec F S50000x32 .f32 :=
  maximumf
    (Host.divf h (broadcastInDim S50000x32 ![0, 1] bcast_S50000x1_S50000x32_0_1
      (maximumf
        (Host.sqrt (broadcastInDim S50000x1 ![0] bcast_S50000_S50000x1_0
          (Host.reduceAdd (mulf h h) (constant S_ .f32 0x00000000#32) reducesTo_S50000x32_S50000_d1 h_S_)))
        (broadcastInDim S50000x1 ![] bcast_S_S50000x1 (constant S_ .f32 0x2B8CBCCC#32)))))
    (broadcastInDim S50000x32 ![] bcast_S_S50000x32 (constant S_ .f32 0x00000000#32))

/-- The first linear layer. -/
def refHid (a : Vec F S50000x32 .f32) (w1 : Vec F S32x32 .f32) (b1 : Vec F S32 .f32) : Vec F S50000x32 .f32 :=
  addf
    (Host.dotGeneral dot_S50000x32_S32x32_S50000x32_1_0_0_1_n_n none a (transpose S32x32 [1, 0] w1 transposes_S32x32_S32x32_1_0))
    (broadcastInDim S50000x32 ![0, 1] bcast_S1x32_S50000x32_0_1 (broadcastInDim S1x32 ![1] bcast_S32_S1x32_1 b1))

/-- The second linear layer: the logits. -/
def refLogit (h : Vec F S50000x32 .f32) (w2 : Vec F S40x32 .f32) (b2 : Vec F S40 .f32) : Vec F S50000x40 .f32 :=
  addf
    (Host.dotGeneral dot_S50000x32_S32x40_S50000x40_1_0_0_1_n_n none h (transpose S32x40 [1, 0] w2 transposes_S40x32_S32x40_1_0))
    (broadcastInDim S50000x40 ![0, 1] bcast_S1x40_S50000x40_0_1 (broadcastInDim S1x40 ![1] bcast_S40_S1x40_1 b2))

/-- Each row's largest logit: the host's maximum over the columns, started from the word of −∞. -/
def refTop (z : Vec F S50000x40 .f32) : Vec F S50000 .f32 :=
  Host.reduce FloatOps.maximumf z (constant S_ .f32 0xFF800000#32) reducesTo_S50000x40_S50000_d1 h_S_

/-- A row's logits less a per-row value `top` (which jax takes once more against −∞ first). -/
def refShiftOf (z : Vec F S50000x40 .f32) (top : Vec F S50000 .f32) : Vec F S50000x40 .f32 :=
  subf z (broadcastInDim S50000x40 ![0, 1] bcast_S50000x1_S50000x40_0_1
    (broadcastInDim S50000x1 ![0] bcast_S50000_S50000x1_0
      (maximumf (broadcastInDim S50000 ![] bcast_S_S50000 (constant S_ .f32 0xFF800000#32)) top)))

/-- A row's logits less their maximum. -/
def refShift (z : Vec F S50000x40 .f32) : Vec F S50000x40 .f32 := refShiftOf z (refTop z)

/-- The shifted logits less the logarithm of the row's sum of their exponentials. -/
def refLsm (s : Vec F S50000x40 .f32) : Vec F S50000x40 .f32 :=
  subf s (broadcastInDim S50000x40 ![0, 1] bcast_S50000x1_S50000x40_0_1
    (Host.log (broadcastInDim S50000x1 ![0] bcast_S50000_S50000x1_0
      (Host.reduceAdd (Host.exp s) (constant S_ .f32 0x00000000#32) reducesTo_S50000x40_S50000_d1 h_S_))))

/-! ## Each stretch read at its result buffer, from any contents -/

variable (W : Valuation τ sig (Elt F))

theorem mean_read : after opsMean W (Proc.devRef .tc main_v22)
    = refMean (W (Proc.devRef .tc main_arg0)) (W (Proc.devRef .tc main_arg1)) := by
  after_results_simp; rfl

theorem pre_read : after opsPre W (Proc.devRef .tc main_v27)
    = refPre (W (Proc.devRef .tc main_arg0)) (W (Proc.devRef .tc main_v22)) (W (Proc.devRef .tc main_arg2)) (W (Proc.devRef .tc main_arg3)) := by
  after_results; rfl

theorem act_read : after opsAct W (Proc.devRef .tc main_v36) = refAct (W (Proc.devRef .tc main_v27)) := by
  after_results; simp only [TRef.ofBuf, TRef.toBuf, cast_eq]; rfl

theorem hid_read : after opsHid W (Proc.devRef .tc main_v41)
    = refHid (W (Proc.devRef .tc main_v36)) (W (Proc.devRef .tc main_arg4)) (W (Proc.devRef .tc main_arg5)) := by
  after_results; rfl

theorem logit_read : after opsLogit W (Proc.devRef .tc main_v46)
    = refLogit (W (Proc.devRef .tc main_v41)) (W (Proc.devRef .tc main_arg6)) (W (Proc.devRef .tc main_arg7)) := by
  after_results; rfl

theorem top_read : after opsTop W (Proc.devRef .tc main_call1_v0) = refTop (W (Proc.devRef .tc main_v46)) := by
  after_results_simp; simp only [TRef.ofBuf, TRef.toBuf, cast_eq]; rfl

theorem shift_read : after opsShift W (Proc.devRef .tc main_call1_v5)
    = refShiftOf (W (Proc.devRef .tc main_v46)) (W (Proc.devRef .tc main_call1_v0)) := by
  after_results_simp; simp only [TRef.ofBuf, TRef.toBuf, cast_eq]; rfl

theorem lsm_read : after opsLsm W (Proc.devRef .tc main_v47) = refLsm (W (Proc.devRef .tc main_call1_v5)) := by
  after_results_simp; simp only [TRef.ofBuf, TRef.toBuf, cast_eq]; rfl

/-! ## No stretch writes an argument array -/

/-- A buffer that no operation of a literal line writes keeps its contents: the writes listed, each unequal to the
    buffer by computation on the references. -/
macro "keeps" : tactic =>
  `(tactic| (refine after_of_forall_not_mem (Val := Elt _) _ _ (List.forall_iff_forall_mem.mp ?_)
             simp only [opsMean, opsPre, opsAct, opsHid, opsLogit, opsTop, opsShift, opsLsm, List.cons_append, List.nil_append, List.append_assoc, List.Forall,
               nullary_writes, unary_writes, binary_writes, ternary_writes, reshape_writes, Finset.mem_singleton]
             repeat' apply And.intro
             all_goals exact devRef_ne_of_ne (by decide)))

theorem mean_keeps_arg0 : after opsMean W (Proc.devRef .tc main_arg0) = W (Proc.devRef .tc main_arg0) := by keeps
theorem mean_keeps_arg2 : after opsMean W (Proc.devRef .tc main_arg2) = W (Proc.devRef .tc main_arg2) := by keeps
theorem mean_keeps_arg3 : after opsMean W (Proc.devRef .tc main_arg3) = W (Proc.devRef .tc main_arg3) := by keeps
theorem act_keeps_arg4 : after (opsMean ++ opsPre ++ opsAct) W (Proc.devRef .tc main_arg4) = W (Proc.devRef .tc main_arg4) := by keeps
theorem act_keeps_arg5 : after (opsMean ++ opsPre ++ opsAct) W (Proc.devRef .tc main_arg5) = W (Proc.devRef .tc main_arg5) := by keeps
theorem hid_keeps_arg6 : after (opsMean ++ opsPre ++ opsAct ++ opsHid) W (Proc.devRef .tc main_arg6) = W (Proc.devRef .tc main_arg6) := by keeps
theorem top_keeps_v46 : after opsTop W (Proc.devRef .tc main_v46) = W (Proc.devRef .tc main_v46) := by keeps
theorem hid_keeps_arg7 : after (opsMean ++ opsPre ++ opsAct ++ opsHid) W (Proc.devRef .tc main_arg7) = W (Proc.devRef .tc main_arg7) := by keeps

/-! ## The whole line -/

/-- The result buffer after the whole line, from contents `W`: the stages composed over `W`'s argument arrays. -/
theorem result_eq : after ValueP.ops W (Proc.devRef .tc main_v47)
    = refLsm (refShift (refLogit (refHid (refAct (refPre (W (Proc.devRef .tc main_arg0))
          (refMean (W (Proc.devRef .tc main_arg0)) (W (Proc.devRef .tc main_arg1)))
          (W (Proc.devRef .tc main_arg2)) (W (Proc.devRef .tc main_arg3))))
        (W (Proc.devRef .tc main_arg4)) (W (Proc.devRef .tc main_arg5)))
      (W (Proc.devRef .tc main_arg6)) (W (Proc.devRef .tc main_arg7)))) := by
  unfold refShift
  rw [ops_eq, after_append, lsm_read, after_append, shift_read, after_append, top_read, top_keeps_v46, after_append, logit_read, hid_keeps_arg6, hid_keeps_arg7, after_append, hid_read,
    act_keeps_arg4, act_keeps_arg5, after_append, act_read, after_append, pre_read, mean_read, mean_keeps_arg0,
    mean_keeps_arg2, mean_keeps_arg3]

/-- No operation of the line writes an argument array. -/
theorem keeps_arg0 : after ValueP.ops W (Proc.devRef .tc main_arg0) = W (Proc.devRef .tc main_arg0) := by rw [ops_eq]; keeps
theorem keeps_arg1 : after ValueP.ops W (Proc.devRef .tc main_arg1) = W (Proc.devRef .tc main_arg1) := by rw [ops_eq]; keeps
theorem keeps_arg2 : after ValueP.ops W (Proc.devRef .tc main_arg2) = W (Proc.devRef .tc main_arg2) := by rw [ops_eq]; keeps
theorem keeps_arg3 : after ValueP.ops W (Proc.devRef .tc main_arg3) = W (Proc.devRef .tc main_arg3) := by rw [ops_eq]; keeps
theorem keeps_arg4 : after ValueP.ops W (Proc.devRef .tc main_arg4) = W (Proc.devRef .tc main_arg4) := by rw [ops_eq]; keeps
theorem keeps_arg5 : after ValueP.ops W (Proc.devRef .tc main_arg5) = W (Proc.devRef .tc main_arg5) := by rw [ops_eq]; keeps
theorem keeps_arg6 : after ValueP.ops W (Proc.devRef .tc main_arg6) = W (Proc.devRef .tc main_arg6) := by rw [ops_eq]; keeps
theorem keeps_arg7 : after ValueP.ops W (Proc.devRef .tc main_arg7) = W (Proc.devRef .tc main_arg7) := by rw [ops_eq]; keeps

end Cert.ReferenceIdeal.Stages

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«103611_j86466281603776_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.ReferenceRows.lean ====
/-
  The reference's stages, entry by entry, on the extended reals: each is the corresponding stage of `RowSpec` at the
  weights transposed (the reference multiplies by `W.T`, written as a `transpose` followed by a plain `dot_general`).
  A host sum starts from the word of zero, which is the extended real `0`, so it is the plain sum; the maximum taken
  once more against −∞ changes nothing, because the fold of `max` that starts from −∞ is already above it.
-/
import proofs.«103611_j86466281603776_1_alg».proof.Proof.ReferenceStages
import proofs.«103611_j86466281603776_1_alg».proof.Proof.RowSpec
import proofs.«103611_j86466281603776_1_alg».proof.Proof.LibHostRows

noncomputable section

namespace Cert.ReferenceIdeal.Rows

open Cert.ReferenceIdeal Cert.ReferenceIdeal.Gen Cert.ReferenceIdeal.Stages Idealize.ShloMosaic Idealize.ShloMosaic.TcCoe
open Idealize.ShloMosaic.ValueIdx Cert.LibHostRows

theorem dot_in_eq : dot_S50000x128_S128x32_S50000x32_1_0_0_1_n_n = DotDims.plain 50000 128 32 := rfl
theorem dot_hid_eq : dot_S50000x32_S32x32_S50000x32_1_0_0_1_n_n = DotDims.plain 50000 32 32 := rfl
theorem dot_out_eq : dot_S50000x32_S32x40_S50000x40_1_0_0_1_n_n = DotDims.plain 50000 32 40 := rfl

/-- The word of zero a host sum starts from, read at the scalar's one index. -/
theorem zero_init : (constant (F := Ideal) S_ .f32 0x00000000#32) (Shape.Idx.first h_S_) = 0 := Ideal.ofBits_zero_f32

theorem refPre_apply (x mean : Vec Ideal S50000x128 .f32) (wl wr : Vec Ideal S32x128 .f32) (r : Fin 50000) (j : Fin 32) :
    refPre (F := Ideal) x mean wl wr (ix2 r j)
      = RowSpec.pre x mean (transpose S128x32 [1, 0] wl transposes_S32x128_S128x32_1_0)
          (transpose S128x32 [1, 0] wr transposes_S32x128_S128x32_1_0) r j := by
  unfold refPre RowSpec.pre
  simp only [Host.dotGeneral, dot_in_eq]
  refine (addf_apply _ _ _).trans ?_
  rw [dotGeneral_plain_apply, dotGeneral_plain_apply]

theorem refAct_apply (h : Vec Ideal S50000x32 .f32) (r : Fin 50000) (j : Fin 32) :
    refAct (F := Ideal) h (ix2 r j)
      = max (Ideal.div (h (ix2 r j))
          (max (Ideal.sqrt (∑ j' : Fin 32, h (ix2 r j') * h (ix2 r j'))) (Ideal.ofBits .f32 0x2B8CBCCC#32)))
        (Ideal.ofBits .f32 0x00000000#32) := by
  unfold refAct
  refine (maximumf_apply _ _ _).trans (congrArg₂ max ?_ (bcast_scalar_apply _ _ _))
  refine (hostDivf_apply _ _ _).trans (congrArg (Ideal.div (h (ix2 r j))) ?_)
  refine (bcast_col_apply _ _ r j).trans ?_
  refine (maximumf_apply _ _ _).trans (congrArg₂ max ?_ (bcast_scalar_apply _ _ _))
  refine (hostSqrt_apply _ _).trans (congrArg Ideal.sqrt ?_)
  refine (bcast_vec_col_apply _ _ r 0).trans ?_
  refine (hostRowSum_apply _ _ _ (by decide) _ r).trans ?_
  rw [zero_init, zero_add]
  rfl

theorem refHid_apply (a : Vec Ideal S50000x32 .f32) (w1 : Vec Ideal S32x32 .f32) (b1 : Vec Ideal S32 .f32) (r : Fin 50000) (i : Fin 32) :
    refHid (F := Ideal) a w1 b1 (ix2 r i)
      = (∑ j : Fin 32, a (ix2 r j) * (transpose S32x32 [1, 0] w1 transposes_S32x32_S32x32_1_0) (ix2 j i)) + b1 (ix1 i) := by
  unfold refHid
  simp only [Host.dotGeneral, dot_hid_eq]
  refine (addf_apply _ _ _).trans ?_
  rw [dotGeneral_plain_apply, bcast_row_apply, bcast_vec_row_apply]

theorem refLogit_apply (h : Vec Ideal S50000x32 .f32) (w2 : Vec Ideal S40x32 .f32) (b2 : Vec Ideal S40 .f32) (r : Fin 50000) (c : Fin 40) :
    refLogit (F := Ideal) h w2 b2 (ix2 r c)
      = (∑ i : Fin 32, h (ix2 r i) * (transpose S32x40 [1, 0] w2 transposes_S40x32_S32x40_1_0) (ix2 i c)) + b2 (ix1 c) := by
  unfold refLogit
  simp only [Host.dotGeneral, dot_out_eq]
  refine (addf_apply _ _ _).trans ?_
  rw [dotGeneral_plain_apply, bcast_row_apply, bcast_vec_row_apply]

theorem refShift_apply (z : Vec Ideal S50000x40 .f32) (r : Fin 50000) (c : Fin 40) :
    refShift (F := Ideal) z (ix2 r c)
      = z (ix2 r c) - (Finset.univ : Finset (Fin 40)).fold max (Ideal.ofBits .f32 0xFF800000#32) (fun c' => z (ix2 r c')) := by
  unfold refShift refShiftOf refTop
  refine (subf_apply _ _ _).trans (congrArg (z (ix2 r c) - ·) ?_)
  refine (bcast_col_apply _ _ r c).trans ?_
  refine (bcast_vec_col_apply _ _ r 0).trans ?_
  refine (maximumf_apply _ _ _).trans ?_
  rw [bcast_scalar_apply, hostRowMax_apply _ _ _ (by decide) _ r]
  exact max_eq_right ((Finset.le_fold_max _).mpr (Or.inl le_rfl))

theorem refLsm_apply (s : Vec Ideal S50000x40 .f32) (r : Fin 50000) (c : Fin 40) :
    refLsm (F := Ideal) s (ix2 r c) = s (ix2 r c) - Ideal.log (∑ c' : Fin 40, Ideal.exp (s (ix2 r c'))) := by
  unfold refLsm
  refine (subf_apply _ _ _).trans (congrArg (s (ix2 r c) - ·) ?_)
  refine (bcast_col_apply _ _ r c).trans ?_
  refine (hostLog_apply _ _).trans (congrArg Ideal.log ?_)
  refine (bcast_vec_col_apply _ _ r 0).trans ?_
  refine (hostRowSum_apply _ _ _ (by decide) _ r).trans ?_
  rw [zero_init, zero_add]
  rfl

/-- The six stages composed are `RowSpec.arr` of `x`, `mean`, the transposed weights and the biases. -/
theorem stages_eq (x mean : Vec Ideal S50000x128 .f32) (wl wr : Vec Ideal S32x128 .f32) (w1 : Vec Ideal S32x32 .f32)
    (b1 : Vec Ideal S32 .f32) (w2 : Vec Ideal S40x32 .f32) (b2 : Vec Ideal S40 .f32) :
    refLsm (F := Ideal) (refShift (refLogit (refHid (refAct (refPre x mean wl wr)) w1 b1) w2 b2))
      = RowSpec.arr (n := 50000) x mean (transpose S128x32 [1, 0] wl transposes_S32x128_S128x32_1_0)
          (transpose S128x32 [1, 0] wr transposes_S32x128_S128x32_1_0) (transpose S32x32 [1, 0] w1 transposes_S32x32_S32x32_1_0) b1
          (transpose S32x40 [1, 0] w2 transposes_S40x32_S32x40_1_0) b2 := by
  funext i
  obtain ⟨r, c, rfl⟩ : ∃ (r : Fin 50000) (c : Fin 40), i = ix2 r c := ⟨i 0, i 1, eq_ix2 i⟩
  rw [RowSpec.arr_apply]
  have hact : ∀ j, refAct (F := Ideal) (refPre x mean wl wr) (ix2 r j)
      = RowSpec.act x mean (transpose S128x32 [1, 0] wl transposes_S32x128_S128x32_1_0)
          (transpose S128x32 [1, 0] wr transposes_S32x128_S128x32_1_0) r j := fun j => by
    rw [refAct_apply]; unfold RowSpec.act RowSpec.nrm; simp only [refPre_apply]
  have hhid : ∀ i', refHid (F := Ideal) (refAct (refPre x mean wl wr)) w1 b1 (ix2 r i')
      = RowSpec.hid x mean (transpose S128x32 [1, 0] wl transposes_S32x128_S128x32_1_0)
          (transpose S128x32 [1, 0] wr transposes_S32x128_S128x32_1_0) (transpose S32x32 [1, 0] w1 transposes_S32x32_S32x32_1_0) b1 r i' :=
    fun i' => by rw [refHid_apply]; unfold RowSpec.hid; simp only [hact]
  have hlogit : ∀ c', refLogit (F := Ideal) (refHid (refAct (refPre x mean wl wr)) w1 b1) w2 b2 (ix2 r c')
      = RowSpec.logit x mean (transpose S128x32 [1, 0] wl transposes_S32x128_S128x32_1_0)
          (transpose S128x32 [1, 0] wr transposes_S32x128_S128x32_1_0) (transpose S32x32 [1, 0] w1 transposes_S32x32_S32x32_1_0) b1
          (transpose S32x40 [1, 0] w2 transposes_S40x32_S32x40_1_0) b2 r c' :=
    fun c' => by rw [refLogit_apply]; unfold RowSpec.logit; simp only [hhid]
  have hsh : ∀ c', refShift (F := Ideal) (refLogit (refHid (refAct (refPre x mean wl wr)) w1 b1) w2 b2) (ix2 r c')
      = RowSpec.shifted x mean (transpose S128x32 [1, 0] wl transposes_S32x128_S128x32_1_0)
          (transpose S128x32 [1, 0] wr transposes_S32x128_S128x32_1_0) (transpose S32x32 [1, 0] w1 transposes_S32x32_S32x32_1_0) b1
          (transpose S32x40 [1, 0] w2 transposes_S40x32_S32x40_1_0) b2 r c' :=
    fun c' => by rw [refShift_apply]; unfold RowSpec.shifted RowSpec.top; simp only [hlogit]
  rw [refLsm_apply]; unfold RowSpec.out; simp only [hsh]

end Cert.ReferenceIdeal.Rows

end
-- ==== Proof.Bridge.lean ====
/-
  The two results are one array. Both programs first compute `mean` by the same gather / scatter-mean over the edge list
  and transpose the same weight arrays, so what the kernel's region finds in its operand buffers and what the
  reference's stages start from are the same functions of the arguments. After that the kernel's result array is
  `RowSpec.arr` of those operands (Proof/KernelArray.lean) and the reference's stages composed are the same
  `RowSpec.arr` (Proof/ReferenceRows.lean).
-/
import proofs.«103611_j86466281603776_1_alg».proof.Proof.KernelArray
import proofs.«103611_j86466281603776_1_alg».proof.Proof.KernelHost
import proofs.«103611_j86466281603776_1_alg».proof.Proof.ReferenceRows

noncomputable section

namespace Cert.Bridge

open Idealize.ShloMosaic Idealize.ShloMosaic.TcCoe Idealize.SL.Sem Idealize.ShloMosaic.StableHlo

/-- The kernel's host operations and the reference's first stretch compute the same `mean`, at any float values. -/
theorem mean_agree {F : FTy → Type} [FloatOps F] (x : Vec F Cert.KernelIdeal.S50000x128 .f32)
    (e : (⟨Cert.KernelIdeal.S2x800000, .i32⟩ : BufTy).Contents (Elt F)) :
    Cert.KernelIdeal.HostSide.kerMean x e = Cert.ReferenceIdeal.Stages.refMean x e := rfl

section Spec
open Cert.ReferenceIdeal Cert.ReferenceIdeal.Gen

/-- The function of the eight argument arrays that both programs end at. -/
def spec (x : Vec Ideal S50000x128 .f32) (e : (⟨S2x800000, .i32⟩ : BufTy).Contents (Elt Ideal))
    (wl wr : Vec Ideal S32x128 .f32) (w1 : Vec Ideal S32x32 .f32) (b1 : Vec Ideal S32 .f32) (w2 : Vec Ideal S40x32 .f32)
    (b2 : Vec Ideal S40 .f32) : S50000x40.Idx → EReal :=
  RowSpec.arr (n := 50000) x (Stages.refMean x e)
    (transpose S128x32 [1, 0] wl transposes_S32x128_S128x32_1_0) (transpose S128x32 [1, 0] wr transposes_S32x128_S128x32_1_0)
    (transpose S32x32 [1, 0] w1 transposes_S32x32_S32x32_1_0) b1 (transpose S32x40 [1, 0] w2 transposes_S40x32_S32x40_1_0) b2

end Spec

section Kernel
open Cert.KernelIdeal Cert.KernelIdeal.Gen

/-- The kernel's result array is `spec` of its launch contents. -/
theorem kernel_result (m : (ℓ : Loc nD τ sig) → Buf (Elt Ideal) ℓ) (c : Dev nD) :
    Cert.KernelIdeal.Whole.result m c
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Cert.KernelIdeal.Whole.result spec
  rw [V_main_arg0, HostSide.V_mean, HostSide.V_wl, HostSide.V_wr, HostSide.V_w1, V_main_arg5, HostSide.V_w2, V_main_arg7, mean_agree]

end Kernel

section Reference
open Cert.ReferenceIdeal Cert.ReferenceIdeal.Gen

/-- The reference's result buffer after its whole line is `spec` of the contents the line starts from. -/
theorem reference_result (W : Valuation τ sig (Elt Ideal)) :
    after ValueP.ops W (Proc.devRef .tc main_v47)
      = spec (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) := by
  rw [Stages.result_eq, Rows.stages_eq]
  rfl

end Reference

end Cert.Bridge

end
-- ==== Proof.lean ====
/-
  The certificate of a GNN layer stack: scatter-mean message passing on the host, then one kernel tiled over blocks of
  5000 nodes — two projections added, L2-normalise, ReLU, two linear layers, log-softmax — against the same
  computation written in jnp on whole arrays.
  On the extended reals a change of float format is the identity and a matrix product into a zero accumulator is the
  plain sum, so the kernel's body and the reference's stages are the SAME row function `RowSpec.out` of a node's row of
  `x` and of `mean` (Proof/RowSpec.lean); the tiling only decides which rows a grid step sees, and the function never
  mixes rows, so the ten blocks written back are the blocks of one array (Proof/KernelArray.lean). The host part that
  comes before — the gather / scatter-mean and the weight transposes — is the same operations in both programs
  (Proof/Bridge.lean). No algebraic law beyond `0 + s = s` and `max ⊥-start fold` is needed, so the precondition is
  never opened. The word-level kernel's frame and the idealized kernel's are the generated ones; the reference's frame
  is its run (a line of 72 host operations, none of which writes an argument) with the result dropped; the ideal pass
  rewrote nothing, so `preserves` is `True`.
-/
import proofs.«103611_j86466281603776_1_alg».proof.Defs
import proofs.«103611_j86466281603776_1_alg».proof.Proof.Gen.Kernel
import proofs.«103611_j86466281603776_1_alg».proof.Proof.Gen.Kernel.Skeleton
import proofs.«103611_j86466281603776_1_alg».proof.Proof.Gen.Kernel.Launch
import proofs.«103611_j86466281603776_1_alg».proof.Proof.Gen.Kernel.Points
import proofs.«103611_j86466281603776_1_alg».proof.Proof.Gen.Kernel.Frame
import proofs.«103611_j86466281603776_1_alg».proof.Proof.Gen.KernelIdeal
import proofs.«103611_j86466281603776_1_alg».proof.Proof.Gen.KernelIdeal.Skeleton
import proofs.«103611_j86466281603776_1_alg».proof.Proof.Gen.KernelIdeal.Launch
import proofs.«103611_j86466281603776_1_alg».proof.Proof.Gen.KernelIdeal.Points
import proofs.«103611_j86466281603776_1_alg».proof.Proof.Gen.KernelIdeal.Frame
import proofs.«103611_j86466281603776_1_alg».proof.Proof.Gen.ReferenceIdeal
import proofs.«103611_j86466281603776_1_alg».proof.Proof.Gen.Pre_finite_inputs
import proofs.«103611_j86466281603776_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's line of host operations writes no argument array. -/
theorem frame_reference : Cert.frame_ReferenceIdeal := fun m ρ _ =>
  (θ_run Cert.ReferenceIdeal.defs _ _).mono (fun _ h c =>
    ⟨(h c _).trans (Cert.ReferenceIdeal.Stages.keeps_arg0 _), (h c _).trans (Cert.ReferenceIdeal.Stages.keeps_arg1 _),
      (h c _).trans (Cert.ReferenceIdeal.Stages.keeps_arg2 _), (h c _).trans (Cert.ReferenceIdeal.Stages.keeps_arg3 _),
      (h c _).trans (Cert.ReferenceIdeal.Stages.keeps_arg4 _), (h c _).trans (Cert.ReferenceIdeal.Stages.keeps_arg5 _),
      (h c _).trans (Cert.ReferenceIdeal.Stages.keeps_arg6 _), (h c _).trans (Cert.ReferenceIdeal.Stages.keeps_arg7 _)⟩)
    (Cert.ReferenceIdeal.ValueP.run (F := Ideal) m ρ)

/-- Both idealized programs, from memories agreeing on the eight arguments, end with the result at `Bridge.spec` of
    those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ?_) (Cert.ReferenceIdeal.ValueP.run (F := Ideal) m' ρ')
  obtain ⟨h0, h1, h2, h3, h4, h5, h6, h7⟩ := hagree c
  refine ⟨(h c _).trans ?_, (h c _).trans (Cert.ReferenceIdeal.Stages.keeps_arg0 _),
    (h c _).trans (Cert.ReferenceIdeal.Stages.keeps_arg1 _), (h c _).trans (Cert.ReferenceIdeal.Stages.keeps_arg2 _),
    (h c _).trans (Cert.ReferenceIdeal.Stages.keeps_arg3 _), (h c _).trans (Cert.ReferenceIdeal.Stages.keeps_arg4 _),
    (h c _).trans (Cert.ReferenceIdeal.Stages.keeps_arg5 _), (h c _).trans (Cert.ReferenceIdeal.Stages.keeps_arg6 _),
    (h c _).trans (Cert.ReferenceIdeal.Stages.keeps_arg7 _)⟩
  refine (Cert.Bridge.reference_result _).trans (Eq.trans ?_ (Cert.Bridge.kernel_result m c).symm)
  exact congr (congr (congr (congr (congr (congr (congr (congrArg Cert.Bridge.spec h0) h1) h2) h3) h4) h5) h6) h7

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
